-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384 : Shape := ⟨1, ![16384]⟩
abbrev S21 : Shape := ⟨1, ![21]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S21 : S_.BroadcastsInDim S21 (![] : Fin 0 → Fin S21.rank)
  reducesTo_S21_S_d0 : S21.ReducesTo [0] S_

variable [Facts]

def fn {F : FTy → Type} [FloatOps F] (main_arg0 : FVec F S16384x3 .f32) (main_arg1 : IVec S16384 32) (main_arg2 : FVec F S21 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S21 .f32 := Host.absf main_arg2
  let main_cst_0 : FVec F S_ .f32 := constant S_ .f32 0x7F800000#32
  let main_v5 : FVec F S21 .f32 := broadcastInDim S21 ![] bcast_S_S21 main_cst_0
  let main_v6 : IVec S21 1 := cmpf .olt main_v4 main_v5
  let main_c_1 : IVec S_ 1 := constantI S_ 1 1#1
  let main_v7 : IVec S_ 1 := (fun x v => Host.reduce IntOp.andi x v reducesTo_S21_S_d0 h_S_) main_v6 main_c_1
  let main_v8 : IVec S_ 1 := andi main_v3 main_v7
  main_v8
-- ==== Kernel.lean ====
abbrev S16384x3 : Shape := ⟨2, ![16384, 3]⟩
abbrev S16384 : Shape := ⟨1, ![16384]⟩
abbrev S21 : Shape := ⟨1, ![21]⟩
abbrev S3x16384 : Shape := ⟨2, ![3, 16384]⟩
abbrev S16384x1 : Shape := ⟨2, ![16384, 1]⟩
abbrev S512x3 : Shape := ⟨2, ![512, 3]⟩
abbrev S3x1024 : Shape := ⟨2, ![3, 1024]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S_ : Shape := ⟨0, ![]⟩

abbrev nBuf : Space → Nat
  | .hbm => 23
  | .vmem => 7
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S21, .f32⟩
  | .hbm, ⟨3, _⟩ => ⟨S3x16384, .f32⟩
  | .hbm, ⟨4, _⟩ => ⟨S16384x1, .f32⟩
  | .hbm, ⟨5, _⟩ => ⟨S16384, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x1024, .f32⟩
  | .local _ .vmem, ⟨3, _⟩ => ⟨S3x1024, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_10 : BitVec 32 := 0#32
  let v42 : BitVec 1 := Scalar.cmpi .ne v41 c0_i32_10
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x3_S3x16384_1_0 : S16384x3.Transposes [1, 0] S3x16384
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3_S512x3_0_0 : ∀ a, (![0, 0] : Fin 2 → Nat) a + S512x3.size a ≤ S512x3.size a
  h_S512x3 : 0 < S512x3.numel
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  shapeCasts_S512_S512x1 : S512.ShapeCasts S512x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  h_S_ : 0 < S_.numel
  gather_S21_S16384x1_S16384_n_0_n_n_0_1_1_wf : GatherDims.WF S21 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S16384x3.size a
  hwx0_0 : ∀ i : grid0.Coords, EltTy.bits .f32 = 32 ∨ (Rect.block (s := S16384x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x16384.size a
  hwx0_1 : ∀ i : grid0.Coords, EltTy.bits .f32 = 32 ∨ (Rect.block (s := S3x16384) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

def gather_S21_S16384x1_S16384_n_0_n_n_0_1_1 : GatherDims S21 S16384x1 S16384 where
  offsetDims := []
  collapsedSliceDims := [0]
  operandBatchingDims := []
  startIndicesBatchingDims := []
  startIndexMap := [0]
  indexVectorDim := 1
  sliceSizes := ![1]
  wf := gather_S21_S16384x1_S16384_n_0_n_n_0_1_1_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x3 : Shape := ⟨2, ![16384, 3]⟩
abbrev S16384 : Shape := ⟨1, ![16384]⟩
abbrev S21 : Shape := ⟨1, ![21]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 44
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S21, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S3x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .i1⟩
  | .hbm, ⟨24, _⟩ => ⟨S16384x16384, .f32⟩
  | .hbm, ⟨25, _⟩ => ⟨S_, .f32⟩
  | .hbm, ⟨26, _⟩ => ⟨S16384, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x3_S3x16384_S16384x16384_1_0_0_1_n_n_wf : DotDims.WF S16384x3 S3x16384 S16384x16384 [1] [0] [0] [1] [] []
  gather_S21_S16384x1_S16384_n_0_n_n_0_1_1_wf : GatherDims.WF S21 S16384x1 S16384 [] [0] [] [0] [] 1 ![1]

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf
def gather_S21_S16384x1_S16384_n_0_n_n_0_1_1 : GatherDims S21 S16384x1 S16384 where
  offsetDims := []
  collapsedSliceDims := [0]
  operandBatchingDims := []
  startIndicesBatchingDims := []
  startIndexMap := [0]
  indexVectorDim := 1
  sliceSizes := ![1]
  wf := gather_S21_S16384x1_S16384_n_0_n_n_0_1_1_wf

class Facts : Prop extends Facts₀ where

variable [Facts]
-- ==== Proof.TileStep.lean ====
/-
  What one grid point leaves behind.  The body of the kernel keeps a 512 × 1 accumulator across the sixteen
  column tiles of a row tile: the first tile resets it to zero, every tile adds its contribution, and the last
  tile copies it into the output block.  Each of these contents is the one pure tile step `k0_pay2` applied to
  the point's two input blocks and to what the accumulator held before.
-/
import proofs.«148297_j52458730553493_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable {F : FTy → Type} [FloatOps F]

theorem hz : (![0, 0] : Fin 2 → Nat) = fun _ => 0 := funext fun a => by fin_cases a <;> rfl

/-- At a first column tile the carried accumulator is reset to the zero block and then receives the tile's
    contribution: what is left in it is the tile step applied to the zero block. -/
theorem scratch_first (c : Dev nD) (i : grid0.Coords) (arg2 : Memref sig .tc .vmem S512x3 .f32) (harg2 : arg2.IsWhole) (arg3 : Memref sig .tc .vmem S3x1024 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3 .f32) (x1 : Vec F S3x1024 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread, View.ld_unit_zero (S := S512x3) hz, View.ld_unit_zero (S := S3x1024) hz, View.ld_unit_zero (S := S512x1) hz]

/-- At a middle column tile the carried accumulator receives the tile's contribution over what the tile before left. -/
theorem scratch_middle (c : Dev nD) (i : grid0.Coords) (arg2 : Memref sig .tc .vmem S512x3 .f32) (harg2 : arg2.IsWhole) (arg3 : Memref sig .tc .vmem S3x1024 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3 .f32) (x1 : Vec F S3x1024 .f32) (xs0 : Vec F S512x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S512x3) hz, View.ld_unit_zero (S := S3x1024) hz, View.ld_unit_zero (S := S512x1) hz]

/-- At the last column tile the accumulator is updated the same way … -/
theorem scratch_last (c : Dev nD) (i : grid0.Coords) (arg2 : Memref sig .tc .vmem S512x3 .f32) (harg2 : arg2.IsWhole) (arg3 : Memref sig .tc .vmem S3x1024 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3 .f32) (x1 : Vec F S3x1024 .f32) (xs0 : Vec F S512x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S512x3) hz, View.ld_unit_zero (S := S3x1024) hz, View.ld_unit_zero (S := S512x1) hz]

/-- … and the output block receives a copy of the updated accumulator. -/
theorem out_last (c : Dev nD) (i : grid0.Coords) (arg2 : Memref sig .tc .vmem S512x3 .f32) (harg2 : arg2.IsWhole) (arg3 : Memref sig .tc .vmem S3x1024 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3 .f32) (x1 : Vec F S3x1024 .f32) (xs0 : Vec F S512x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S512x1) _ hz]
  simp only [View.readAt_eq_ld, harg2.read_unread, harg3.read_unread, harg5.read_unread, View.ld_unit_zero (S := S512x3) hz, View.ld_unit_zero (S := S3x1024) hz, View.ld_unit_zero (S := S512x1) hz]

end Cert.KernelIdeal.Tiles

end
-- ==== Proof.Contacts.lean ====
/-
  The mathematics of the neighbour count, with no program in sight.

  A point is a triple of extended reals.  Two formulas give the squared distance of two points: the sum of the
  squared coordinate differences, and |a|² + |b|² − 2⟨a,b⟩ with the two norms and the inner product written as
  sums started from the zero word.  A pair of points is in contact when √(max d 0) < 8; the test is a one-bit
  word, read back as a number either through a widening to 32 bits and a signed conversion, or through an
  unsigned conversion of the bit itself.  The count of a point is the sum of its contacts over all 16384
  points, taken either at once or tile by tile, sixteen tiles of 1024 columns each.
-/
import Idealize.ShloMosaic.PureOps.Ideal
import Idealize.ShloMosaic.PureOps.Ideal.Laws
import Idealize.ShloMosaic.Lib.ValueIdx

noncomputable section

open scoped BigOperators

namespace Cert.Contacts

open Idealize.ShloMosaic

/-- A point: three coordinates. -/
abbrev Point := Fin 3 → EReal
/-- The 16384 points. -/
abbrev Cloud := Fin 16384 → Point

/-- The zero word, the word of 2 and the word of the cutoff 8, read at the ideal instance. -/
abbrev zeroW : EReal := Ideal.ofBits .f32 0x00000000#32
abbrev twoW : EReal := Ideal.ofBits .f32 0x40000000#32
abbrev cutW : EReal := Ideal.ofBits .f32 0x41000000#32

/-- Squared distance as the sum of the squared coordinate differences. -/
def sqDiff (a b : Point) : EReal :=
  (a 0 - b 0) * (a 0 - b 0) + (a 1 - b 1) * (a 1 - b 1) + (a 2 - b 2) * (a 2 - b 2)

/-- Squared distance as |a|² + |b|² − 2⟨a,b⟩. -/
def sqDot (a b : Point) : EReal :=
  ((zeroW + ∑ k : Fin 3, a k * a k) + (zeroW + ∑ k : Fin 3, b k * b k)) - twoW * ∑ k : Fin 3, a k * b k

/-- The contact test on a squared distance: √(max d 0) < 8, as a one-bit word. -/
def within (d : EReal) : BitVec 1 := Ideal.cmp .olt (Ideal.sqrt (max d zeroW)) cutW

/-- A contact read as a number: the bit widened to 32 bits and converted as a signed integer. -/
def hitS (a b : Point) : EReal := ((((within (sqDiff a b)).setWidth 32).toInt : ℝ) : EReal)

/-- A contact read as a number: the bit converted as an unsigned integer. -/
def hitU (a b : Point) : EReal := ((((within (sqDot a b)).toNat : ℕ) : ℝ) : EReal)

/-- The column of tile `jb` at offset `q`. -/
def col (jb : Fin 16) (q : Fin 1024) : Fin 16384 := ⟨jb.val * 1024 + q.val, by have := jb.isLt; have := q.isLt; omega⟩

/-- One tile's contribution to the count of point `r`. -/
def tileCount (X : Cloud) (r : Fin 16384) (jb : Fin 16) : EReal := ∑ q : Fin 1024, hitS (X r) (X (col jb q))

/-- The count of point `r` after its first `n` tiles, accumulated from the zero word. -/
def partialCount (X : Cloud) (r : Fin 16384) : ℕ → EReal
  | 0 => zeroW
  | n + 1 => partialCount X r n + (if h : n < 16 then tileCount X r ⟨n, h⟩ else 0)

/-- The count of point `r`, difference form, all columns at once. -/
def countS (X : Cloud) (r : Fin 16384) : EReal := ∑ j : Fin 16384, hitS (X r) (X j)

/-- The count of point `r`, inner-product form, started from the zero word. -/
def countU (X : Cloud) (r : Fin 16384) : EReal := zeroW + ∑ j : Fin 16384, hitU (X r) (X j)

/-- The points of a 16384 × 3 array. -/
def cloudOf (x : (⟨2, ![16384, 3]⟩ : Shape).Idx → EReal) : Cloud := fun r k => x (ValueIdx.ix2 r k)

/-- Every coordinate of every point is a real number. -/
def Finite (X : Cloud) : Prop := ∀ r k, ∃ v : ℝ, X r k = (v : EReal)

end Cert.Contacts

end
-- ==== Proof.TilePayload.lean ====
/-
  The kernel's two stored values read at a row.

  The first is the zero word on every row.  The second adds to the carried count of row p the number of
  columns q of the tile whose point is in contact with the point of row p: the squared distance is the sum of
  the three squared coordinate differences, the contact test is √(max d 0) < 8 as one bit, the bit is widened
  to 32 bits and read as a signed integer, and the readings are summed over the 1024 columns.
-/
import proofs.«148297_j52458730553493_1_alg».proof.Proof.Contacts
import proofs.«148297_j52458730553493_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.TilePayload

open Idealize.ShloMosaic Idealize.ShloMosaic.ValueIdx Cert.Contacts Cert.KernelIdeal Cert.KernelIdeal.Gen

variable {α : Type}

/-- Column c of a 512 × 3 array, as a 512 × 1 array, read at row p. -/
theorem colSlice_apply (x : S512x3.Idx → α) (c : Fin 3) (h : S512x3.Slices ![0, c.val] S512x1) (p : Fin 512) :
    extractStridedSlice S512x1 ![0, c.val] x h (ix2 p (0 : Fin 1)) = x (ix2 p c) :=
  extractStridedSlice_apply _ x h (ix2 p (0 : Fin 1)) (ix2 p c) (fun a =>
    match a with
    | ⟨0, _⟩ => by show p.val = 0 + p.val; omega
    | ⟨1, _⟩ => by show c.val = c.val + 0; omega)

/-- Row c of a 3 × 1024 array, as a 1 × 1024 array, read at column q. -/
theorem rowSlice_apply (y : S3x1024.Idx → α) (c : Fin 3) (h : S3x1024.Slices ![c.val, 0] S1x1024) (q : Fin 1024) :
    extractStridedSlice S1x1024 ![c.val, 0] y h (ix2 (0 : Fin 1) q) = y (ix2 c q) :=
  extractStridedSlice_apply _ y h (ix2 (0 : Fin 1) q) (ix2 c q) (fun a =>
    match a with
    | ⟨0, _⟩ => by show c.val = c.val + 0; omega
    | ⟨1, _⟩ => by show q.val = 0 + q.val; omega)

/-- A 512 × 1 column laid along 1024 columns reads its row. -/
theorem colBroadcast_apply (x : S512x1.Idx → α) (h : S512x1.Broadcasts S512x1024) (p : Fin 512) (q : Fin 1024) :
    broadcastTo S512x1024 x h (ix2 p q) = x (ix2 p (0 : Fin 1)) :=
  broadcastTo_apply x h (ix2 p q) (ix2 p (0 : Fin 1)) (fun a =>
    match a with
    | ⟨0, _⟩ => rfl
    | ⟨1, _⟩ => rfl)

/-- A 1 × 1024 row laid along 512 rows reads its column. -/
theorem rowBroadcast_apply (y : S1x1024.Idx → α) (h : S1x1024.Broadcasts S512x1024) (p : Fin 512) (q : Fin 1024) :
    broadcastTo S512x1024 y h (ix2 p q) = y (ix2 (0 : Fin 1) q) :=
  broadcastTo_apply y h (ix2 p q) (ix2 (0 : Fin 1) q) (fun a =>
    match a with
    | ⟨0, _⟩ => rfl
    | ⟨1, _⟩ => rfl)

/-- The difference of coordinate c between the point of row p and the point of column q. -/
theorem diff_apply (x : FVec Ideal S512x3 .f32) (y y' : FVec Ideal S3x1024 .f32) (hy : y = y') (c : Fin 3)
    (h1 : S512x3.Slices ![0, c.val] S512x1) (h2 : S3x1024.Slices ![c.val, 0] S1x1024)
    (b1 : S512x1.Broadcasts S512x1024) (b2 : S1x1024.Broadcasts S512x1024) (p : Fin 512) (q : Fin 1024) :
    subf (broadcastTo S512x1024 (extractStridedSlice S512x1 ![0, c.val] x h1) b1)
        (broadcastTo S512x1024 (extractStridedSlice S1x1024 ![c.val, 0] y h2) b2) (ix2 p q)
      = x (ix2 p c) - y' (ix2 c q) := by
  subst hy
  refine (subf_apply _ _ _).trans ?_
  rw [colBroadcast_apply, rowBroadcast_apply, colSlice_apply, rowSlice_apply]

/-- The contact reading of a pair of points from its three coordinate differences. -/
theorem hit_of_diffs (a b : Point) (a0 a1 a2 : EReal) (h0 : a0 = a 0 - b 0) (h1 : a1 = a 1 - b 1) (h2 : a2 = a 2 - b 2) :
    (FloatOps.sitofp (F := Ideal) .f32 ((FloatOps.cmpf .olt (FloatOps.sqrt (FloatOps.maximumf (FloatOps.addf (FloatOps.addf
      (FloatOps.mulf a0 a0) (FloatOps.mulf a1 a1)) (FloatOps.mulf a2 a2)) (Scalar.ofBits (F := Ideal) .f32 0x00000000#32)))
      (Scalar.ofBits (F := Ideal) .f32 0x41000000#32)).setWidth 32) : Ideal .f32) = hitS a b := by
  subst h0 h1 h2
  rfl

/-- The sum over the 1024 lanes of row p, from the zero word. -/
theorem laneSum_apply (x : FVec Ideal S512x1024 .f32) (h : S512x1024.Reduces [1] S512) (hφ : FKind.Formats .f32)
    (hacc : (0x00000000#32 : BitVec 32) = 0x00000000#32) (p : Fin 512) :
    multiReduction (F := Ideal) .add [1] S512 x 0x00000000#32 h hφ hacc (ix1 p) = ∑ q : Fin 1024, x (ix2 p q) := by
  refine (Ideal.multiReduction_add_single x 0x00000000#32 h hφ hacc (ix1 p)).trans ?_
  refine Finset.sum_congr rfl (fun q _ => congrArg x ?_)
  funext c
  apply Fin.ext
  match c with
  | ⟨0, _⟩ => rfl
  | ⟨1, _⟩ => rfl

/-- A vector of 512 entries viewed as a 512 × 1 column reads its entry. -/
theorem column_apply (x : S512.Idx → α) (h : S512.ShapeCasts S512x1) (p : Fin 512) :
    shapeCast S512x1 x h (ix2 p (0 : Fin 1)) = x (ix1 p) :=
  shapeCast_apply x h (ix2 p (0 : Fin 1)) (ix1 p) (by
    rw [Shape.rowMajor_val_two, Shape.rowMajor_val_one]; show p.val = p.val * 1 + 0; omega)

/-- The first stored value is the zero word on every row. -/
theorem pay1_apply (p : Fin 512) : k0_pay1 (F := Ideal) (ix2 p (0 : Fin 1)) = zeroW := by
  unfold k0_pay1
  refine (congrFun (shapeCast_self _ _) _).trans ?_
  rfl

/-- The second stored value at row p: the carried count plus the contacts of row p among the tile's columns. -/
theorem pay2_apply (v3 : Vec Ideal S512x3 .f32) (v4 : Vec Ideal S3x1024 .f32) (v35 : Vec Ideal S512x1 .f32) (p : Fin 512) :
    k0_pay2 (F := Ideal) v3 v4 v35 (ix2 p (0 : Fin 1))
      = v35 (ix2 p (0 : Fin 1)) + ∑ q : Fin 1024, hitS (fun k => v3 (ix2 p k)) (fun k => v4 (ix2 k q)) := by
  unfold k0_pay2
  refine (congrFun (shapeCast_self _ _) _).trans ?_
  refine (addf_apply _ _ _).trans ?_
  refine congrArg (fun z => v35 (ix2 p (0 : Fin 1)) + z) ?_
  refine (column_apply _ _ p).trans ?_
  refine (laneSum_apply _ _ _ _ p).trans ?_
  refine Finset.sum_congr rfl (fun q _ => ?_)
  have e5 : shapeCast S3x1024 v4 shapeCasts_S3x1024_S3x1024 = v4 := shapeCast_self _ _
  exact hit_of_diffs (fun k => v3 (ix2 p k)) (fun k => v4 (ix2 k q)) _ _ _
    (diff_apply v3 _ v4 e5 0 slices_S512x3_o0_0_S512x1 slices_S3x1024_o0_0_S1x1024
      broadcasts_S512x1_S512x1024 broadcasts_S1x1024_S512x1024 p q)
    (diff_apply v3 _ v4 e5 1 slices_S512x3_o0_1_S512x1 slices_S3x1024_o1_0_S1x1024
      broadcasts_S512x1_S512x1024 broadcasts_S1x1024_S512x1024 p q)
    (diff_apply v3 _ v4 e5 2 slices_S512x3_o0_2_S512x1 slices_S3x1024_o2_0_S1x1024
      broadcasts_S512x1_S512x1024 broadcasts_S1x1024_S512x1024 p q)

end Cert.TilePayload

end
-- ==== Proof.ContactLaws.lean ====
/-
  Laws of the neighbour count: the two squared-distance formulas agree on real points, the two readings of a
  one-bit word agree, and the count taken tile by tile is the count taken at once.
-/
import proofs.«148297_j52458730553493_1_alg».proof.Proof.Contacts
import Mathlib.Data.EReal.Basic
import Mathlib.Data.EReal.Operations
import Mathlib.Algebra.BigOperators.Fin
import Mathlib.Logic.Equiv.Fin.Basic
import Mathlib.Tactic.Ring
import Mathlib.Tactic.NormNum

noncomputable section

open scoped BigOperators

namespace Cert.Contacts

open Idealize.ShloMosaic

/-- The zero word denotes 0. -/
theorem zeroW_eq : zeroW = 0 := Ideal.ofBits_zero_f32

/-- The word of 2 denotes the real number 2. -/
theorem twoW_eq : twoW = ((2 : ℝ) : EReal) := by
  simp [Ideal.ofBits, Ideal.ieee, -EReal.coe_mul]; norm_num

/-- On real points the two squared-distance formulas agree: Σ (a_k − b_k)² = |a|² + |b|² − 2⟨a,b⟩. -/
theorem sqDiff_eq_sqDot (a b : Point) (ha : ∀ k, ∃ v : ℝ, a k = (v : EReal))
    (hb : ∀ k, ∃ v : ℝ, b k = (v : EReal)) : sqDiff a b = sqDot a b := by
  choose va hva using ha
  choose vb hvb using hb
  unfold sqDiff sqDot
  rw [Fin.sum_univ_three, Fin.sum_univ_three, Fin.sum_univ_three]
  simp only [hva, hvb, Ideal.ofBits_zero_f32, twoW_eq, zero_add]
  simp only [← EReal.coe_sub, ← EReal.coe_mul, ← EReal.coe_add]
  exact congrArg _ (by ring)

/-- A one-bit word widened to 32 bits and read as a signed integer is the bit read as a natural number. -/
theorem bit_reads (b : BitVec 1) : (((b.setWidth 32).toInt : ℤ) : ℝ) = ((b.toNat : ℕ) : ℝ) := by
  have h : (b.setWidth 32).toInt = (b.toNat : ℤ) := by
    have hlt := b.isLt
    rw [BitVec.toInt_eq_toNat_of_lt, BitVec.toNat_setWidth]
    · congr 1; omega
    · rw [BitVec.toNat_setWidth]; omega
  rw [h]; simp

theorem hit_eq (a b : Point) (ha : ∀ k, ∃ v : ℝ, a k = (v : EReal)) (hb : ∀ k, ∃ v : ℝ, b k = (v : EReal)) :
    hitS a b = hitU a b := by
  unfold hitS hitU
  rw [sqDiff_eq_sqDot a b ha hb, bit_reads]

/-- The count after `n` tiles is the zero word plus the sum of the first `n` tile counts. -/
theorem partialCount_eq_sum (X : Cloud) (r : Fin 16384) (n : ℕ) :
    partialCount X r n
      = zeroW + ∑ jb ∈ Finset.range n, (if h : jb < 16 then tileCount X r ⟨jb, h⟩ else 0) := by
  induction n with
  | zero => simp [partialCount]
  | succ n ih => rw [partialCount, ih, Finset.sum_range_succ, add_assoc]

/-- A sum over the 16384 columns is the sum over sixteen tiles of the sums over their 1024 columns. -/
theorem sum_tiles (g : Fin 16384 → EReal) :
    ∑ jb : Fin 16, ∑ q : Fin 1024, g (col jb q) = ∑ j : Fin 16384, g j := by
  rw [← Fintype.sum_prod_type']
  refine Fintype.sum_equiv (finProdFinEquiv.trans (finCongr (by norm_num))) _ _ (fun p => ?_)
  congr 1
  apply Fin.ext
  show (p.1 : ℕ) * 1024 + (p.2 : ℕ) = (p.2 : ℕ) + 1024 * (p.1 : ℕ)
  ring

theorem partialCount_sixteen (X : Cloud) (r : Fin 16384) : partialCount X r 16 = countS X r := by
  rw [partialCount_eq_sum, zeroW_eq, zero_add, ← Fin.sum_univ_eq_sum_range
    (fun jb => if h : jb < 16 then tileCount X r ⟨jb, h⟩ else 0) 16]
  unfold countS
  rw [← sum_tiles]
  refine Finset.sum_congr rfl (fun jb _ => ?_)
  rw [dif_pos jb.isLt]
  rfl

theorem countS_eq_countU (X : Cloud) (hX : Finite X) : countS X = countU X := by
  funext r
  unfold countS countU
  rw [zeroW_eq, zero_add]
  exact Finset.sum_congr rfl (fun j _ => hit_eq (X r) (X j) (hX r) (hX j))

end Cert.Contacts

end
-- ==== Proof.RunningCount.lean ====
/-
  The running count.  Grid point `t` works on row tile `t / 16` (512 points) and column tile `t % 16` (1024
  points, read through the transposed copy of the point array).  By induction on the grid point the carried
  accumulator holds, at row `p`, the count of point `t / 16 * 512 + p` over the column tiles seen so far; at the
  last column tile the output block receives the finished counts.
-/
import proofs.«148297_j52458730553493_1_alg».proof.Proof.TileStep
import proofs.«148297_j52458730553493_1_alg».proof.Proof.TilePayload
import proofs.«148297_j52458730553493_1_alg».proof.Proof.ContactLaws
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Contacts

variable (m : (ℓ : Loc nD τ sig) → Buf (Elt Ideal) ℓ)

/-- The points the program is launched with, on core `c`. -/
abbrev pts (c : Dev nD) : Vec Ideal S16384x3 .f32 := m ((c : Thread nD τ).loc main_arg0)

/-- The block indices of the three windows at grid point `t`: the row tile is `t / 16`, the column tile `t % 16`. -/
theorem tile_of_point : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0 :=
  (by decide +kernel : ∀ t : Fin grid0.N, _)

/-- The transposed copy the host makes before the region holds coordinate `k` of point `n` at `(k, n)`. -/
theorem transposed_apply (c : Dev nD) (k : Fin 3) (n : Fin 16384) :
    V m c main_v0 (ix2 k n) = pts m c (ix2 n k) := by
  have e : (V m c main_v0 : S3x16384.Idx → EReal)
      = transpose S3x16384 [1, 0] (m ((c : Thread nD τ).loc main_arg0)) transposes_S16384x3_S3x16384_1_0 := by
    show StableHlo.after hostOps0 (fun b => m (c, b)) (Proc.devRef .tc main_v0) = _
    after_results
  rw [e]
  exact transpose_apply [1, 0] _ transposes_S16384x3_S3x16384_1_0 (ix2 k n) (ix2 n k) (fun b => match b with
    | ⟨0, _⟩ => rfl
    | ⟨1, _⟩ => rfl)

/-- Row `p` of the row tile of point `t` is point `t / 16 * 512 + p`. -/
theorem rowBlk_apply (c : Dev nD) (t : Fin cfg0.N) (p : Fin 512) (k : Fin 3) (R : Fin 16384)
    (hR : R.val = t.val / 16 * 512 + p.val) :
    (iblk m c 0 t : Vec Ideal S512x3 .f32) (ix2 p k) = pts m c (ix2 R k) := by
  obtain ⟨e0, e1, -⟩ := tile_of_point t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = R.val; omega
  | ⟨1, _⟩ => show win0_0.index t (1 : Fin 2) * 3 + 1 * k.val = k.val; omega

/-- Column `q` of the column tile of point `t` is point `t % 16 * 1024 + q`, read through the transposed copy. -/
theorem colBlk_apply (c : Dev nD) (t : Fin cfg0.N) (k : Fin 3) (q : Fin 1024) (J : Fin 16384)
    (hJ : J.val = t.val % 16 * 1024 + q.val) :
    (iblk m c 1 t : Vec Ideal S3x1024 .f32) (ix2 k q) = pts m c (ix2 J k) := by
  obtain ⟨-, -, e0, e1, -⟩ := tile_of_point t
  rw [← transposed_apply m c k J]
  unfold iblk
  rw [View.read_apply]
  show V m c main_v0 _ = _
  refine congrArg (V m c main_v0) (funext fun a => Fin.ext ?_)
  match a with
  | ⟨0, _⟩ => show win0_1.index t (0 : Fin 2) * 3 + 1 * k.val = k.val; omega
  | ⟨1, _⟩ => show win0_1.index t (1 : Fin 2) * 1024 + 1 * q.val = J.val; omega

/-- The cloud the program is launched with, on core `c`. -/
abbrev cloud (c : Dev nD) : Cloud := cloudOf (pts m c)

/-- One tile step at row `p` of grid point `t`: whatever the accumulator held, it gains the count of the columns
    of tile `t % 16` in contact with point `t / 16 * 512 + p`. -/
theorem step_apply (c : Dev nD) (t : Fin cfg0.N) (acc : Vec Ideal S512x1 .f32) (p : Fin 512) (R : Fin 16384)
    (hR : R.val = t.val / 16 * 512 + p.val) (jb : Fin 16) (hjb : jb.val = t.val % 16) :
    k0_pay2 (F := Ideal) (iblk m c 0 t) (iblk m c 1 t) acc (ix2 p (0 : Fin 1))
      = acc (ix2 p (0 : Fin 1)) + tileCount (cloud m c) R jb := by
  refine (Cert.TilePayload.pay2_apply (iblk m c 0 t) (iblk m c 1 t) acc p).trans ?_
  refine congrArg (acc (ix2 p (0 : Fin 1)) + ·) (Finset.sum_congr rfl fun q _ => ?_)
  have hrow : (fun k => (iblk m c 0 t : Vec Ideal S512x3 .f32) (ix2 p k)) = cloud m c R :=
    funext fun k => rowBlk_apply m c t p k R hR
  have hcol : (fun k => (iblk m c 1 t : Vec Ideal S3x1024 .f32) (ix2 k q)) = cloud m c (col jb q) :=
    funext fun k => colBlk_apply m c t k q (col jb q) (by show jb.val * 1024 + q.val = _; rw [hjb])
  rw [hrow, hcol]

/-- THE RUNNING COUNT.  After grid point `n` the carried accumulator holds, at row `p`, the count of point
    `n / 16 * 512 + p` over the first `n % 16 + 1` column tiles. -/
theorem scratch_eq (c : Dev nD) : ∀ (n : ℕ) (h : n < cfg0.N) (p : Fin 512) (R : Fin 16384),
    R.val = n / 16 * 512 + p.val →
    (outsAt0 m c n h).2 (ix2 p (0 : Fin 1)) = partialCount (cloud m c) R (n % 16 + 1) := by
  intro n
  induction n with
  | zero =>
    intro h p R hR
    rw [outsAt0_A m c ⟨0, h⟩ rfl (by show ¬(0 % 16 = 15); decide)]
    dsimp only
    rw [scratch_first]
    rw [step_apply m c ⟨0, h⟩ _ p R hR ⟨0, by decide⟩ rfl, Cert.TilePayload.pay1_apply]
    rfl
  | succ n ih =>
    intro h p R hR
    have hN : cfg0.N = 512 := N_0
    by_cases h0 : (n + 1) % 16 = 0
    · have h1 : ¬(n + 1) % 16 = 15 := by omega
      rw [outsAt0_A m c ⟨n + 1, h⟩ h0 h1]
      dsimp only
      rw [scratch_first]
      rw [step_apply m c ⟨n + 1, h⟩ _ p R hR ⟨0, by decide⟩ (by show 0 = (n + 1) % 16; omega), Cert.TilePayload.pay1_apply, h0]
      rfl
    · have hprev : (outsAt0 m c n (Nat.lt_of_succ_lt h)).2 (ix2 p (0 : Fin 1)) = partialCount (cloud m c) R (n % 16 + 1) :=
        ih (Nat.lt_of_succ_lt h) p R (by omega)
      have hlt : (n + 1) % 16 < 16 := Nat.mod_lt _ (by decide)
      have hstep : partialCount (cloud m c) R ((n + 1) % 16 + 1)
          = partialCount (cloud m c) R (n % 16 + 1) + tileCount (cloud m c) R ⟨(n + 1) % 16, hlt⟩ := by
        have e : (n + 1) % 16 = n % 16 + 1 := by omega
        show partialCount (cloud m c) R ((n + 1) % 16) + (if h : (n + 1) % 16 < 16 then tileCount (cloud m c) R ⟨(n + 1) % 16, h⟩ else 0) = _
        rw [dif_pos hlt]
        exact congrArg (· + tileCount (cloud m c) R ⟨(n + 1) % 16, hlt⟩) (congrArg (partialCount (cloud m c) R) e)
      by_cases h1 : (n + 1) % 16 = 15
      · rw [outsAt0_C m c ⟨n + 1, h⟩ h0 h1]
        dsimp only
        rw [scratch_last]
        rw [step_apply m c ⟨n + 1, h⟩ _ p R hR ⟨(n + 1) % 16, hlt⟩ rfl, hstep]
        exact congrArg (· + _) hprev
      · rw [outsAt0_B m c ⟨n + 1, h⟩ h0 h1]
        dsimp only
        rw [scratch_middle]
        rw [step_apply m c ⟨n + 1, h⟩ _ p R hR ⟨(n + 1) % 16, hlt⟩ rfl, hstep]
        exact congrArg (· + _) hprev

/-- At the last column tile of a row tile the output block receives the finished count of each of its rows. -/
theorem out_eq (c : Dev nD) (t : Fin cfg0.N) (h15 : t.val % 16 = 15) (p : Fin 512) (R : Fin 16384)
    (hR : R.val = t.val / 16 * 512 + p.val) :
    (outsAt0 m c t.val t.isLt).1 (ix2 p (0 : Fin 1)) = countS (cloud m c) R := by
  have h0 : ¬t.val % 16 = 0 := by omega
  have e : (outsAt0 m c t.val t.isLt).1 = (outsAt0 m c t.val t.isLt).2 := by
    rw [outsAt0_C m c t h0 h15]
    dsimp only
    rw [out_last, scratch_last]
  rw [e, scratch_eq m c t.val t.isLt p R hR, h15, partialCount_sixteen]

end Cert.KernelIdeal.Tiles

end
-- ==== Proof.CountArray.lean ====
/-
  From the blocks to the result.  Only the last column tile of each row tile writes its output block back, and
  those thirty-two blocks of 512 rows tile the 16384 × 1 result of the region: it ends holding the count of every
  point.  The host lines after the region reshape it to a vector and compute the energy from it, from the
  identifiers and from the table, which the region does not touch.
-/
import proofs.«148297_j52458730553493_1_alg».proof.Proof.RunningCount
import Idealize.ShloMosaic.Lib.Pipeline.Value
import Idealize.ShloMosaic.Lib.ValueIdx
import Idealize.ShloMosaic.Lib.StableHlo.Run

-- a window's block shape at a grid point is computed from the window's record: the unifier unfolds it coordinate by coordinate
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.Contacts

variable (m : (ℓ : Loc nD τ sig) → Buf (Elt Ideal) ℓ) (ρ : Dev nD → PrngReg)

/-- The array of counts: entry `(r, 0)` is the count of point `r`. -/
def countsArr (c : Dev nD) : Vec Ideal S16384x1 .f32 := fun i => countS (cloud m c) (i 0)

/-- An index of the count array is in the output block of point `t` iff each coordinate is in the block's range. -/
theorem mem_outBlk (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- The output block of a last column tile, entry by entry. -/
theorem out_block_eq (c : Dev nD) (t : Fin cfg0.N) (h15 : t.val % 16 = 15) (y : S512x1.Idx) (R : Fin 16384)
    (hR : R.val = t.val / 16 * 512 + (y 0).val) :
    ((outsAt0 m c t.val t.isLt).1 : Vec Ideal S512x1 .f32) y = countS (cloud m c) R := by
  obtain ⟨p, q, rfl⟩ : ∃ (p : Fin 512) (q : Fin 1), y = ix2 p q := ⟨y 0, y 1, eq_ix2 y⟩
  obtain rfl : q = 0 := Subsingleton.elim _ _
  exact out_eq m c t h15 p R hR

/-- What a writing-back point writes back is its block of any array whose entry `(r, 0)` is the count of point `r`. -/
theorem flushed_eq_of (c : Dev nD) (G : Vec Ideal S16384x1 .f32) (hG : ∀ i, G i = countS (cloud m c) (i 0))
    (t : Fin cfg0.N) (hf : (cfg0.win 2).flush t = true) :
    (dats m 0 c).flushed 2 t = ((cfg0.win 2).blk t).view.read (Elt Ideal) G := by
  have h15 : t.val % 16 = 15 := (flush0_2 t).mp hf
  obtain ⟨-, -, -, -, e0, e1⟩ := tile_of_point t
  show (cfg0.win 2).cut (grid0.coords t) ((dats m 0 c).after 2 t) = _
  rw [after0_2]
  funext y
  rw [View.read_apply]
  show _ = G _
  rw [hG]
  refine out_block_eq m c t h15 _ _ ?_
  show win0_2.index t (0 : Fin 2) * 512 + 1 * (y 0).val = _
  have hx : ((cfg0.win 2).xinj (grid0.coords t) y 0).val = (y 0).val := rfl
  omega

/-- What a writing-back point writes back is its block of the count array. -/
theorem flushed_eq (c : Dev nD) (t : Fin cfg0.N) (hf : (cfg0.win 2).flush t = true) :
    (dats m 0 c).flushed 2 t = ((cfg0.win 2).blk t).view.read (Elt Ideal) (countsArr m c) :=
  flushed_eq_of m c (countsArr m c) (fun _ => rfl) t hf

/-- Every entry of the count array lies in the output block of the last column tile of its row tile. -/
theorem covered (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 512 := N_0
  refine ⟨⟨(i 0).val / 512 * 16 + 15, by omega⟩, (flush0_2 _).mpr (by show ((i 0).val / 512 * 16 + 15) % 16 = 15; omega), ?_⟩
  obtain ⟨-, -, -, -, e0, e1⟩ := tile_of_point ⟨(i 0).val / 512 * 16 + 15, by omega⟩
  rw [mem_outBlk]
  intro a
  match a with
  | ⟨0, _⟩ =>
    show win0_2.index _ (0 : Fin 2) * 512 ≤ (i 0).val ∧ (i 0).val < win0_2.index _ (0 : Fin 2) * 512 + 512
    rw [e0]
    show ((i 0).val / 512 * 16 + 15) / 16 * 512 ≤ (i 0).val ∧ (i 0).val < ((i 0).val / 512 * 16 + 15) / 16 * 512 + 512
    omega
  | ⟨1, _⟩ =>
    show win0_2.index _ (1 : Fin 2) * 1 ≤ (i 1).val ∧ (i 1).val < win0_2.index _ (1 : Fin 2) * 1 + 1
    rw [e1]
    omega

/-- So the count array is what the region leaves in its result. -/
theorem final_counts (c : Dev nD) : (dats m 0 c).arrAt 2 cfg0.N = countsArr m c :=
  (dats m 0 c).arrAt_eq_of_cover 2 (countsArr m c) (flushed_eq m c) (covered)

/-- The energy of a count vector: −0.1 · table[id] · count summed over the points and divided by 16384, the
    identifier of a point wrapped once when negative and the table read at it. -/
def energy (cnt : FVec Ideal S16384 .f32) (ids : IVec S16384 32) (tbl : FVec Ideal S21 .f32) : FVec Ideal S_ .f32 :=
  Host.divf (F := Ideal) (Host.reduceAdd (F := Ideal) (mulf (mulf (broadcastInDim S16384 ![] bcast_S_S16384 (constant (F := Ideal) S_ .f32 0xBDCCCCCD#32)) (Host.gather gather_S21_S16384x1_S16384_n_0_n_n_0_1_1 tbl (broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 21#32))) ids)))) cnt) (constant (F := Ideal) S_ .f32 0x00000000#32) reducesTo_S16384_S_d0 h_S_) (constant (F := Ideal) S_ .f32 0x46800000#32)

/-- The host lines after the region compute the energy of the reshaped count array. -/
theorem tail_eq (c : Dev nD) (A : Vec Ideal S16384x1 .f32) (hA : (dats m 0 c).arrAt 2 cfg0.N = A) :
    Pipeline.afterTail₀ cfgs (dats m) 0 (V0 m) [hostOps1] c main_v14
      = energy (shapeCast S16384 A shapeCasts_S16384x1_S16384) (m ((c : Thread nD τ).loc main_arg1)) (m ((c : Thread nD τ).loc main_arg2)) := by
  unfold Pipeline.afterTail₀
  show StableHlo.after hostOps1 _ (Proc.devRef .tc main_v14) = _
  after_results
  have e1 : Pipeline.withArrays (cfgs 0).spec c (V0 m c) (fun w => (dats m 0 c).arrAt w (cfgs 0).N) (Proc.devRef .tc main_v1) = A :=
    (Pipeline.withArrays_arr spec0 launch0.win.arr_inj c _ _ 2).trans hA
  have e2 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have e3 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [e1, e2, e3]
  rfl

/-- THE RUN, READ.  Every weakly fair execution of the program ends with its result at the energy of the count
    array and its three arguments as launched. -/
theorem run : θ_run defs (onTc (τ := τ) (main (F := Ideal))) ⟨m, fun _ => 0, ρ⟩ fun r => ∀ c : Dev nD,
      r.2.mem ((c : Thread nD τ).loc main_v14)
        = energy (shapeCast S16384 (countsArr m c) shapeCasts_S16384x1_S16384) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v14 (Pipeline.mem_restRefs_of main_v14 (by decide) (by decide))).trans (tail_eq m c _ (final_counts m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tiles

end
-- ==== Proof.RefCount.lean ====
/-
  The reference's neighbour count is the inner-product form of the count.

  Stage by stage, the reference program computes for a pair of points (r, j) the number
  d = (0 + Σ_k x(r,k)²) + (0 + Σ_k x(j,k)²) − 2 · Σ_k x(r,k) · xᵀ(k,j), with xᵀ(k,j) = x(j,k),
  tests √(max d 0) < 8, reads the one-bit answer as an unsigned number, and sums over j starting
  from the zero word.  That is the count in inner-product form.
-/
import proofs.«148297_j52458730553493_1_alg».proof.Proof.Contacts
import proofs.«148297_j52458730553493_1_alg».proof.Proof.Gen.ReferenceIdeal.Read

noncomputable section

open scoped BigOperators

namespace Cert.RefCount

open Cert.ReferenceIdeal Cert.ReferenceIdeal.Gen Cert.ReferenceIdeal.Read
open Idealize.ShloMosaic Idealize.ShloMosaic.ValueIdx
open Cert.Contacts

/-- The squared norm of point `r`, started from the zero word. -/
theorem v1_at (x0 : (⟨Cert.ReferenceIdeal.S16384x3, .f32⟩ : BufTy).Contents (Elt Ideal)) (r : Fin 16384) :
    val_main_v1 (F := Ideal) x0 (ix1 r) = zeroW + ∑ k : Fin 3, x0 (ix2 r k) * x0 (ix2 r k) := by
  rw [val_main_v1_apply]
  refine congrArg (_ + ·) (Finset.sum_congr rfl fun k _ => ?_)
  rw [val_main_v0_apply]
  have e : idx_main_v1 (ix1 r) k = ix2 r k :=
    funext fun a => Fin.ext (by match a with | ⟨0, _⟩ => rfl | ⟨1, _⟩ => rfl)
  rw [e]
  rfl

/-- The inner product of points `r` and `j`. -/
theorem v8_at (x0 : (⟨Cert.ReferenceIdeal.S16384x3, .f32⟩ : BufTy).Contents (Elt Ideal)) (r j : Fin 16384) :
    val_main_v8 (F := Ideal) x0 (ix2 r j) = ∑ k : Fin 3, x0 (ix2 r k) * x0 (ix2 j k) := by
  rw [val_main_v8_apply]
  refine Finset.sum_congr rfl fun k _ => ?_
  rw [val_main_v7_apply]
  have el : lidx_main_v8 (ix2 r j) k = ix2 r k :=
    funext fun a => Fin.ext (by match a with | ⟨0, _⟩ => rfl | ⟨1, _⟩ => rfl)
  have er : idx_main_v7 (ridx_main_v8 (ix2 r j) k) = ix2 j k :=
    funext fun a => Fin.ext (by match a with | ⟨0, _⟩ => rfl | ⟨1, _⟩ => rfl)
  rw [el, er]

/-- The squared distance of points `r` and `j`, inner-product form. -/
theorem v11_at (x0 : (⟨Cert.ReferenceIdeal.S16384x3, .f32⟩ : BufTy).Contents (Elt Ideal)) (r j : Fin 16384) :
    val_main_v11 (F := Ideal) x0 (ix2 r j) = sqDot (cloudOf x0 r) (cloudOf x0 j) := by
  rw [val_main_v11_apply, val_main_v6_apply, val_main_v4_apply, val_main_v2_apply,
    val_main_v5_apply, val_main_v3_apply, val_main_v10_apply, val_main_v9_apply, val_main_cst_0_apply]
  have e4 : idx_main_v2 (idx_main_v4 (ix2 r j)) = ix1 r :=
    funext fun a => Fin.ext (by match a with | ⟨0, _⟩ => rfl)
  have e5 : idx_main_v3 (idx_main_v5 (ix2 r j)) = ix1 j :=
    funext fun a => Fin.ext (by match a with | ⟨0, _⟩ => rfl)
  rw [e4, e5, v1_at, v1_at, v8_at]
  rfl

/-- One contact of the reference, read as an unsigned number. -/
theorem v17_at (x0 : (⟨Cert.ReferenceIdeal.S16384x3, .f32⟩ : BufTy).Contents (Elt Ideal)) (r j : Fin 16384) :
    val_main_v17 (F := Ideal) x0 (ix2 r j) = hitU (cloudOf x0 r) (cloudOf x0 j) := by
  rw [val_main_v17_apply, val_main_v16_apply, val_main_v14_apply, val_main_v13_apply, v11_at,
    val_main_v12_apply, val_main_cst_1_apply, val_main_v15_apply, val_main_cst_2_apply]
  rfl

/-- The reference's neighbour count of point `r` is the count in inner-product form. -/
theorem v18_eq_countU (x0 : (⟨Cert.ReferenceIdeal.S16384x3, .f32⟩ : BufTy).Contents (Elt Ideal)) (r : Fin 16384) :
    Cert.ReferenceIdeal.Read.val_main_v18 (F := Ideal) x0 (ix1 r) = Cert.Contacts.countU (Cert.Contacts.cloudOf x0) r := by
  rw [val_main_v18_apply]
  unfold countU
  refine congrArg₂ (· + ·) rfl (Finset.sum_congr rfl fun j _ => ?_)
  have e : idx_main_v18 (ix1 r) j = ix2 r j :=
    funext fun a => Fin.ext (by match a with | ⟨0, _⟩ => rfl | ⟨1, _⟩ => rfl)
  rw [e, v17_at]

end Cert.RefCount

end
-- ==== Proof.Bridge.lean ====
/-
  The two programs meet.  The reference's neighbour count is the count in inner-product form started from the
  zero word; on real points it is the count in difference form, which is what the kernel's region leaves, read
  through the reshape.  From there on the two programs apply the same energy formula to the same identifiers and
  the same table.
-/
import proofs.«148297_j52458730553493_1_alg».proof.Proof.CountArray
import proofs.«148297_j52458730553493_1_alg».proof.Proof.RefCount
import proofs.«148297_j52458730553493_1_alg».proof.Proof.ContactLaws
import Idealize.ShloMosaic.Lib.Pipeline.Value
import Idealize.ShloMosaic.Lib.ValueIdx

noncomputable section

open Idealize.ShloMosaic Idealize.ShloMosaic.ValueIdx

namespace Cert.Bridge

open Cert.Contacts

/-- The reshape of a 16384 × 1 array to a vector reads entry `(r, 0)` at `r`. -/
theorem reshape_column (A : Vec Ideal Cert.KernelIdeal.S16384x1 .f32)
    (h : Cert.KernelIdeal.S16384x1.ShapeCasts Cert.KernelIdeal.S16384) (r : Fin 16384) :
    shapeCast Cert.KernelIdeal.S16384 A h (ix1 r) = A (ix2 r (0 : Fin 1)) :=
  shapeCast_apply A h (ix1 r) (ix2 r (0 : Fin 1)) (by
    rw [Shape.rowMajor_val_two, Shape.rowMajor_val_one]
    show r.val * 1 + 0 = r.val
    omega)

/-- On real points the reference's count vector is the reshape of any array holding the counts in difference form. -/
theorem ref_counts (x0 : (⟨Cert.ReferenceIdeal.S16384x3, .f32⟩ : BufTy).Contents (Elt Ideal))
    (hfin : Finite (cloudOf x0)) (A : Vec Ideal Cert.KernelIdeal.S16384x1 .f32)
    (hA : ∀ i, A i = countS (cloudOf x0) (i 0)) (h : Cert.KernelIdeal.S16384x1.ShapeCasts Cert.KernelIdeal.S16384) :
    Cert.ReferenceIdeal.Read.val_main_v18 (F := Ideal) x0 = shapeCast Cert.KernelIdeal.S16384 A h := by
  funext i
  obtain ⟨r, rfl⟩ : ∃ r : Fin 16384, i = ix1 r := ⟨i 0, eq_ix1 i⟩
  rw [Cert.RefCount.v18_eq_countU, ← countS_eq_countU _ hfin]
  exact ((reshape_column A h r).trans (hA _)).symm

end Cert.Bridge

end
-- ==== Proof.FiniteCoords.lean ====
/-
  Every entry of the point array is a real number.

  The precondition is the one-bit conjunction of "every |x0| < +∞" and "every |x2| < +∞".  From the first
  conjunct, at each index the comparison max x (−x) < ⊤ holds; an extended real with that property is
  neither ⊤ nor ⊥, hence a real number.
-/
import proofs.«148297_j52458730553493_1_alg».proof.Proof.Contacts
import proofs.«148297_j52458730553493_1_alg».proof.Pre_finite_inputs
import Idealize.ShloMosaic.Lib.ReduceAll

noncomputable section

namespace Cert.FiniteCoords

open Idealize.ShloMosaic Idealize.ShloMosaic.ValueIdx Cert.Contacts

/-- The rank-0 shape has one index. -/
instance : Subsingleton Cert.Pre_finite_inputs.S_.Idx := ⟨fun a b => funext fun d => d.elim0⟩

/-- The word of +∞ denotes ⊤. -/
theorem inf_word : Ideal.ofBits .f32 0x7F800000#32 = (⊤ : EReal) := by simp [Ideal.ofBits, Ideal.ieee]

/-- An extended real whose absolute value max x (−x) is below ⊤ is a real number. -/
theorem real_of_abs_lt_top (x : EReal) (h : max x (-x) < ⊤) : ∃ v : ℝ, x = (v : EReal) := by
  induction x using EReal.rec with
  | bot => simp at h
  | coe v => exact ⟨v, rfl⟩
  | top => simp at h

/-- The comparison "less than" as a one-bit word is 1 exactly when the order relation holds. -/
theorem lt_of_cmp_olt (a b : EReal) (h : Ideal.cmp .olt a b = 1#1) : a < b := by
  unfold Ideal.cmp at h
  by_contra hn
  simp [hn] at h

theorem finite_of_pre [Cert.Pre_finite_inputs.Facts] (x0 : FVec Ideal Cert.Pre_finite_inputs.S16384x3 .f32)
    (x1 : IVec Cert.Pre_finite_inputs.S16384 32) (x2 : FVec Ideal Cert.Pre_finite_inputs.S21 .f32)
    (h : Cert.Pre_finite_inputs.fn (F := Ideal) x0 x1 x2 = fun _ => 1#1) :
    Cert.Contacts.Finite (Cert.Contacts.cloudOf x0) := by
  intro r k
  have h0 := congrFun h ValueIdx.ix0
  dsimp only [Cert.Pre_finite_inputs.fn] at h0
  obtain ⟨hA, _⟩ := IntOp.andi_eq_one.1 h0
  have hi := Host.reduce_andi_all _ _ _ _ _ hA (ValueIdx.ix2 r k)
  have hlt : max (x0 (ValueIdx.ix2 r k) : EReal) (-(x0 (ValueIdx.ix2 r k) : EReal)) < ⊤ := by
    have hw : max (x0 (ValueIdx.ix2 r k) : EReal) (-(x0 (ValueIdx.ix2 r k) : EReal))
        < Ideal.ofBits .f32 0x7F800000#32 := lt_of_cmp_olt _ _ hi
    rw [inf_word] at hw
    exact hw
  exact real_of_abs_lt_top _ hlt

end Cert.FiniteCoords

end
-- ==== Proof.lean ====
/-
  SideChainPacking: the neighbour-count energy of 16384 points.

  Both programs compute, for every point r, the number of points j with √(max d(r,j) 0) < 8, multiply it by
  −0.1 times a table entry chosen by the point's identifier, sum over the points and divide by 16384.  The kernel
  takes d(r,j) = Σ_k (x(r,k) − x(j,k))², tile by tile over a 32 × 16 grid, and accumulates the counts of a row
  tile over its sixteen column tiles; the reference takes d(r,j) = |x_r|² + |x_j|² − 2⟨x_r, x_j⟩ over the whole
  16384 × 16384 table.  On real coordinates — the precondition says every coordinate is finite — the two formulas
  agree, and a finite sum over the extended reals may be taken in any grouping, so the two count vectors are one
  vector; the rest of the two programs is the same formula of the same arguments.

  The modules: Contacts (the mathematics, no program), ContactLaws (its laws), FiniteCoords (the precondition gives
  real coordinates), TilePayload (the tile step read at a row), TileStep (what a grid point leaves), RunningCount
  (the induction over the grid), CountArray (the region's result and the program's run), RefCount (the reference's
  count), Bridge (the two count vectors are one).
-/
import proofs.«148297_j52458730553493_1_alg».proof.Defs
import proofs.«148297_j52458730553493_1_alg».proof.Proof.Gen.Kernel
import proofs.«148297_j52458730553493_1_alg».proof.Proof.Gen.Kernel.Skeleton
import proofs.«148297_j52458730553493_1_alg».proof.Proof.Gen.Kernel.Launch
import proofs.«148297_j52458730553493_1_alg».proof.Proof.Gen.Kernel.Points
import proofs.«148297_j52458730553493_1_alg».proof.Proof.Gen.Kernel.Frame
import proofs.«148297_j52458730553493_1_alg».proof.Proof.Gen.KernelIdeal
import proofs.«148297_j52458730553493_1_alg».proof.Proof.Gen.KernelIdeal.Skeleton
import proofs.«148297_j52458730553493_1_alg».proof.Proof.Gen.KernelIdeal.Launch
import proofs.«148297_j52458730553493_1_alg».proof.Proof.Gen.KernelIdeal.Points
import proofs.«148297_j52458730553493_1_alg».proof.Proof.Gen.KernelIdeal.Frame
import proofs.«148297_j52458730553493_1_alg».proof.Proof.Gen.ReferenceIdeal
import proofs.«148297_j52458730553493_1_alg».proof.Proof.Gen.ReferenceIdeal.Run
import proofs.«148297_j52458730553493_1_alg».proof.Proof.Gen.ReferenceIdeal.Read
import proofs.«148297_j52458730553493_1_alg».proof.Proof.Gen.Pre_finite_inputs
import proofs.«148297_j52458730553493_1_alg».proof.Proof.Bridge
import proofs.«148297_j52458730553493_1_alg».proof.Proof.FiniteCoords
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the energy of the difference-form counts of the launched points. -/
theorem algebraic : Cert.algebraic_KernelIdeal_ReferenceIdeal := by
  intro m ρ m' ρ' hpre hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2]
  have hfin := Cert.FiniteCoords.finite_of_pre _ _ _ (hpre c)
  unfold Cert.ReferenceIdeal.Read.val_main_v30 Cert.ReferenceIdeal.Read.val_main_v29 Cert.ReferenceIdeal.Read.val_main_v28
  rw [Cert.Bridge.ref_counts _ hfin (Cert.KernelIdeal.Tiles.countsArr m c) (fun _ => rfl)
    Cert.KernelIdeal.Facts₀.shapeCasts_S16384x1_S16384]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
